-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S1000x2048 : Shape := ⟨2, ![1000, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x2048 .f32) (main_arg1 : IVec S16384 32) (main_arg2 : FVec F S1000x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1000x2048 .f32 := Host.absf main_arg2
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 1000#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x2048 : Shape := ⟨2, ![16384, 2048]⟩
abbrev S16384 : Shape := ⟨1, ![16384]⟩
abbrev S1000x2048 : Shape := ⟨2, ![1000, 2048]⟩
abbrev S_ : Shape := ⟨0, ![]⟩
abbrev S1024x2048 : Shape := ⟨2, ![1024, 2048]⟩
abbrev S1 : Shape := ⟨1, ![1]⟩
abbrev S1024 : Shape := ⟨1, ![1024]⟩
abbrev S1x1024 : Shape := ⟨2, ![1, 1024]⟩
abbrev S16384x1 : Shape := ⟨2, ![16384, 1]⟩
abbrev S16x128 : Shape := ⟨2, ![16, 128]⟩
abbrev S2048x2048 : Shape := ⟨2, ![2048, 2048]⟩
abbrev S2048x1 : Shape := ⟨2, ![2048, 1]⟩
abbrev S8x128 : Shape := ⟨2, ![8, 128]⟩
abbrev S1x1 : Shape := ⟨2, ![1, 1]⟩
abbrev S2048 : Shape := ⟨1, ![2048]⟩
abbrev S2048x1024 : Shape := ⟨2, ![2048, 1024]⟩
abbrev S1x2048x1 : Shape := ⟨3, ![1, 2048, 1]⟩
abbrev S1x1x1 : Shape := ⟨3, ![1, 1, 1]⟩

abbrev nBuf : Space → Nat
  | .hbm => 19
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S1000x2048, .f32⟩
  | .hbm, ⟨3, _⟩ => ⟨S_, .f32⟩
  | .hbm, ⟨4, _⟩ => ⟨S1024x2048, .f32⟩
  | .hbm, ⟨5, _⟩ => ⟨S_, .i32⟩
  | .hbm, ⟨6, _⟩ => ⟨S1, .i32⟩
  | .hbm, ⟨7, _⟩ => ⟨S1024x2048, .f32⟩
  | .hbm, ⟨8, _⟩ => ⟨S1024x2048, .bf16⟩
  | .hbm, ⟨9, _⟩ => ⟨S1024x2048, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S16384x1, .i32⟩
  | .hbm, ⟨14, _⟩ => ⟨S16x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S2048x2048, .f32⟩
  | .local _ .vmem, ⟨1, _⟩ => ⟨S2048x2048, .f32⟩
  | .local _ .vmem, ⟨2, _⟩ => ⟨S2048x1, .i32⟩
  | .local _ .vmem, ⟨3, _⟩ => ⟨S2048x1, .i32⟩
  | .local _ .vmem, ⟨4, _⟩ => ⟨S1024x2048, .bf16⟩
  | .local _ .vmem, ⟨5, _⟩ => ⟨S1x1024, .f32⟩
  | .local _ .vmem, ⟨6, _⟩ => ⟨S8x128, .f32⟩
  | .local _ .vmem, ⟨7, _⟩ => ⟨S8x128, .f32⟩
  | .local _ .vmem, ⟨8, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S1024x2048 : S_.BroadcastsInDim S1024x2048 (![] : Fin 0 → Fin S1024x2048.rank)
  bcast_S_S1 : S_.BroadcastsInDim S1 (![] : Fin 0 → Fin S1.rank)
  bitsLt_bf16_f32 : FTy.bits .bf16 < FTy.bits .f32
  reducesTo_S1024x2048_S1024_d1 : S1024x2048.ReducesTo [1] S1024
  h_S_ : 0 < S_.numel
  shapeCasts_S1024_S1x1024 : S1024.ShapeCasts S1x1024
  shapeCasts_S16384_S16384x1 : S16384.ShapeCasts S16384x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S2048x1024_d1_w32 : S2048x1024.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  reduces_S2048x1024_S2048 : S2048x1024.Reduces [1] S2048
  broadcasts_S1x1024_S2048x1024 : S1x1024.Broadcasts S2048x1024
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  inpos_S1x1_p0_0 : ∀ a, (![0, 0] : Fin 2 → Nat) a < S1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  scatter_S1024x2048_S1_S1000x2048_01_n_0_0_wf : ScatterDims.WF S1024x2048 S1 S1000x2048 [0, 1] [] [0] 0
  dot_S2048x2048_S1024x2048_S2048x1024_1_1_0_0_n_n_wf : DotDims.WF S2048x2048 S1024x2048 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x2048.size a
  hwx0_0 : ∀ i : grid0.Coords, EltTy.bits .f32 = 32 ∨ (Rect.block (s := S16384x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .i32 = 32 ∨ (Rect.block (s := S16384x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def scatter_S1024x2048_S1_S1000x2048_01_n_0_0 : ScatterDims S1024x2048 S1 S1000x2048 where
  updateWindowDims := [0, 1]
  insertedWindowDims := []
  scatterDimsToOperandDims := [0]
  indexVectorDim := 0
  wf := scatter_S1024x2048_S1_S1000x2048_01_n_0_0_wf
def dot_S2048x2048_S1024x2048_S2048x1024_1_1_0_0_n_n : DotDims S2048x2048 S1024x2048 S2048x1024 where
  lhsContracting := [1]
  rhsContracting := [1]
  lhsNonContracting := [0]
  rhsNonContracting := [0]
  lhsBatch := []
  rhsBatch := []
  wf := dot_S2048x2048_S1024x2048_S2048x1024_1_1_0_0_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S1000x2048 : Shape := ⟨2, ![1000, 2048]⟩
abbrev S_ : Shape := ⟨0, ![]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S2048x1000 : Shape := ⟨2, ![2048, 1000]⟩
abbrev S16384x2 : Shape := ⟨2, ![16384, 2]⟩

abbrev nBuf : Space → Nat
  | .hbm => 51
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S1000x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1000x2048, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S2048x1000, .f32⟩
  | .hbm, ⟨15, _⟩ => ⟨S16384x1000, .f32⟩
  | .hbm, ⟨16, _⟩ => ⟨S_, .f32⟩
  | .hbm, ⟨17, _⟩ => ⟨S16384x1000, .f32⟩
  | .hbm, ⟨18, _⟩ => ⟨S16384x1000, .f32⟩
  | .hbm, ⟨19, _⟩ => ⟨S16384x1000, .f32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x1, .i32⟩
  | .hbm, ⟨37, _⟩ => ⟨S16384x2, .i32⟩
  | .hbm, ⟨38, _⟩ => ⟨S16384, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S16384, .f32⟩
  | .hbm, ⟨46, _⟩ => ⟨S16384, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  reducesTo_S1000x2048_S1000_d1 : S1000x2048.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  transposes_S1000x2048_S2048x1000_1_0 : S1000x2048.Transposes [1, 0] S2048x1000
  bcast_S_S16384x1000 : S_.BroadcastsInDim S16384x1000 (![] : Fin 0 → Fin S16384x1000.rank)
  bcast_S_S16384 : S_.BroadcastsInDim S16384 (![] : Fin 0 → Fin S16384.rank)
  concatenates_S16384x1_S16384x1_S16384x2_d1 : Shape.Concatenates [S16384x1, S16384x1] S16384x2 1
  reducesTo_S16384_S_d0 : S16384.ReducesTo [0] S_
  dot_S16384x2048_S2048x1000_S16384x1000_1_0_0_1_n_n_wf : DotDims.WF S16384x2048 S2048x1000 S16384x1000 [1] [0] [0] [1] [] []
  gather_S16384x1000_S16384x2_S16384_n_01_n_n_01_1_11_wf : GatherDims.WF S16384x1000 S16384x2 S16384 [] [0, 1] [] [0, 1] [] 1 ![1, 1]

variable [Facts₀]

def dot_S16384x2048_S2048x1000_S16384x1000_1_0_0_1_n_n : DotDims S16384x2048 S2048x1000 S16384x1000 where
  lhsContracting := [1]
  rhsContracting := [0]
  lhsNonContracting := [0]
  rhsNonContracting := [1]
  lhsBatch := []
  rhsBatch := []
  wf := dot_S16384x2048_S2048x1000_S16384x1000_1_0_0_1_n_n_wf
def gather_S16384x1000_S16384x2_S16384_n_01_n_n_01_1_11 : GatherDims S16384x1000 S16384x2 S16384 where
  offsetDims := []
  collapsedSliceDims := [0, 1]
  operandBatchingDims := []
  startIndicesBatchingDims := []
  startIndexMap := [0, 1]
  indexVectorDim := 1
  sliceSizes := ![1, 1]
  wf := gather_S16384x1000_S16384x2_S16384_n_01_n_n_01_1_11_wf

class Facts : Prop extends Facts₀ where

variable [Facts]
-- ==== Proof.LabelRange.lean ====
import proofs.«426345_j6777458393605_3_alg».proof.Pre_finite_inputs
import proofs.«426345_j6777458393605_3_alg».proof.Proof.Gen.Pre_finite_inputs
import Idealize.ShloMosaic.Lib.ValueIdx
import Idealize.ShloMosaic.Lib.ReduceAll
import Idealize.ShloMosaic.Lib.StableHlo.Predicate

noncomputable section

open scoped BigOperators

namespace Cert.LabelRange

open Idealize.ShloMosaic Idealize.ShloMosaic.ValueIdx Cert.Pre_finite_inputs

variable {F : FTy → Type} [FloatOps F]

/-- A rank-0 shape has a single index (there is no coordinate to differ in). -/
instance subsingleton_scalarIdx : Subsingleton S_.Idx := ⟨fun a b => funext fun d => d.elim0⟩

/-- A 32-bit word that is nonnegative and below 1000 when read signed is below 1000 when read unsigned:
    a nonnegative signed reading has the top bit clear, so both readings agree. -/
theorem toNat_lt_of_toInt_range (v : BitVec 32) (h0 : (0 : Int) ≤ v.toInt) (h1 : v.toInt < 1000) : v.toNat < 1000 := by
  have hv : v.toNat < 2 ^ 32 := v.isLt
  rw [BitVec.toInt_eq_toNat_cond] at h0 h1
  split at h0 <;> omega

/-- The precondition's last conjunct: every label is the number of a centre, 0 ≤ label < 1000 (read as a signed word;
    so as an unsigned word it is below 1000 too). -/
theorem label_lt (x : FVec F S16384x2048 .f32) (lab : IVec S16384 32) (w : FVec F S1000x2048 .f32)
    (h : Cert.Pre_finite_inputs.fn (F := F) x lab w = fun _ => 1#1) (n : Fin 16384) :
    (lab (ix1 n)).toNat < 1000 := by
  -- the predicate's one element is 1
  have h0 := congrFun h ValueIdx.ix0
  unfold Cert.Pre_finite_inputs.fn at h0
  dsimp only at h0
  -- its outermost `and`: keep the second half, the reduce-and over all labels
  have hall := (IntOp.andi_eq_one.1 h0).2
  -- a reduce-and over every index that is 1 had a 1 at index n
  have hn := Host.reduce_andi_all _ _ _ _ _ hall (ix1 n)
  -- that element is the `and` of the two compare bits
  obtain ⟨hge, hlt⟩ := IntOp.andi_eq_one.1 hn
  -- the compares are against the constants 0 and 1000, broadcast from a scalar
  have hge' : (0#32 : BitVec 32).toInt ≤ (lab (ix1 n)).toInt := IntOp.cmpi_sge.1 hge
  have hlt' : (lab (ix1 n)).toInt < (1000#32 : BitVec 32).toInt := IntOp.cmpi_slt.1 hlt
  have e0 : (0#32 : BitVec 32).toInt = 0 := by decide
  have e1 : (1000#32 : BitVec 32).toInt = 1000 := by decide
  rw [e0] at hge'
  rw [e1] at hlt'
  exact toNat_lt_of_toInt_range _ hge' hlt'

end Cert.LabelRange

end
-- ==== Proof.Spec.lean ====
/-
  The mathematics both programs compute, stated once over the argument arrays at the extended reals.

  For a row n of x and a centre c of w the squared distance is expanded as
      dist n c = (∑ₖ x[n,k]² + ∑ₖ w[c,k]²) − 2 · ∑ₖ x[n,k]·w[c,k],
  it is clipped into [lo, hi], and the loss is the sum over the rows, each at the centre its label names,
  divided by the number of rows.  Both programs add the same 16384 clipped distances; they differ in how
  the sum is grouped (one flat sum; or eight tiles of 2048 rows, accumulated four and four), so the only
  laws used below are commutativity and associativity of + on the extended reals.
-/
import Idealize.ShloMosaic.PureOps.Ideal
import Idealize.ShloMosaic.PureOps.Ideal.Laws
import Idealize.ShloMosaic.Lib.ValueIdx

noncomputable section

open scoped BigOperators

namespace Cert.LabelDist

open Idealize.ShloMosaic Idealize.ShloMosaic.ValueIdx

/-- The lower clip bound (the f32 nearest 1e-12), never evaluated: the same word on both sides. -/
abbrev lo : EReal := Ideal.ofBits .f32 0x2B8CBCCC#32
/-- The upper clip bound (the f32 nearest 1e12). -/
abbrev hi : EReal := Ideal.ofBits .f32 0x5368D4A5#32
/-- The factor 2 of the cross term. -/
abbrev two : EReal := Ideal.ofBits .f32 0x40000000#32
/-- The number of rows, 16384, the loss is divided by. -/
abbrev rows : EReal := Ideal.ofBits .f32 0x46800000#32

/-- ∑ₖ a[r,k]² : the squared norm of row r of an array with 2048 columns. -/
def sqNorm {R : Nat} (a : (⟨2, ![R, 2048]⟩ : Shape).Idx → EReal) (r : Fin R) : EReal :=
  ∑ k : Fin 2048, a (ix2 r k) * a (ix2 r k)

/-- ∑ₖ x[n,k]·w[c,k] : the inner product of row n of x with centre c. -/
def inner {R C : Nat} (x : (⟨2, ![R, 2048]⟩ : Shape).Idx → EReal) (w : (⟨2, ![C, 2048]⟩ : Shape).Idx → EReal)
    (n : Fin R) (c : Fin C) : EReal :=
  ∑ k : Fin 2048, x (ix2 n k) * w (ix2 c k)

/-- The expanded squared distance of row n to centre c. -/
def dist {R C : Nat} (x : (⟨2, ![R, 2048]⟩ : Shape).Idx → EReal) (w : (⟨2, ![C, 2048]⟩ : Shape).Idx → EReal)
    (n : Fin R) (c : Fin C) : EReal :=
  (sqNorm x n + sqNorm w c) - two * inner x w n c

/-- Clipping into [lo, hi]: first from below, then from above. -/
def clip (v : EReal) : EReal := min hi (max lo v)

/-- Row n's term of the loss, at the centre c. -/
def rowLoss {R C : Nat} (x : (⟨2, ![R, 2048]⟩ : Shape).Idx → EReal) (w : (⟨2, ![C, 2048]⟩ : Shape).Idx → EReal)
    (n : Fin R) (c : Fin C) : EReal :=
  clip (dist x w n c)

/-- The loss: the mean over the rows of the clipped distance to the labelled centre. -/
def loss (x : (⟨2, ![16384, 2048]⟩ : Shape).Idx → EReal) (w : (⟨2, ![1000, 2048]⟩ : Shape).Idx → EReal)
    (ℓ : Fin 16384 → Fin 1000) : EReal :=
  Ideal.div (∑ n : Fin 16384, rowLoss x w n (ℓ n)) rows

/-! ## Tiles of 2048 rows, accumulated in two groups of four -/

/-- Row r of tile t. -/
def tileRow (t : Fin 8) (r : Fin 2048) : Fin 16384 := ⟨2048 * t.val + r.val, by have := t.isLt; have := r.isLt; omega⟩

/-- The sum of f over the rows of tile t (t read as a natural number; tiles beyond the eighth are empty sums' junk 0). -/
def tileSum (f : Fin 16384 → EReal) (t : ℕ) : EReal :=
  if h : t < 8 then ∑ r : Fin 2048, f (tileRow ⟨t, h⟩ r) else 0

/-- The running sum a group of four tiles keeps: restarted at every fourth tile, otherwise the previous value
    plus this tile's sum. -/
def groupAcc (T : ℕ → EReal) : ℕ → EReal
  | 0 => T 0
  | n + 1 => if (n + 1) % 4 = 0 then T (n + 1) else groupAcc T n + T (n + 1)

theorem groupAcc_restart (T : ℕ → EReal) (n : ℕ) (h : n % 4 = 0) : groupAcc T n = T n := by
  cases n with
  | zero => rfl
  | succ n => simp only [groupAcc, if_pos h]

theorem groupAcc_step (T : ℕ → EReal) (n : ℕ) (h : ¬ n % 4 = 0) : groupAcc T n = groupAcc T (n - 1) + T n := by
  cases n with
  | zero => exact absurd rfl h
  | succ n => simp only [groupAcc, if_neg h, Nat.add_sub_cancel]

/-- The two groups' final values add up to the sum of all eight tiles. -/
theorem groupAcc_total (T : ℕ → EReal) : groupAcc T 3 + groupAcc T 7 = ∑ t : Fin 8, T t.val := by
  simp only [groupAcc, Fin.sum_univ_eight]
  norm_num
  abel

/-- The rows are the eight tiles' rows: a sum over all rows is the sum of the tiles' sums. -/
theorem sum_rows_eq_tiles (f : Fin 16384 → EReal) : ∑ n : Fin 16384, f n = ∑ t : Fin 8, tileSum f t.val := by
  have e : ∑ n : Fin 16384, f n = ∑ p : Fin 8 × Fin 2048, f (finProdFinEquiv p) :=
    (Equiv.sum_comp (finProdFinEquiv (m := 8) (n := 2048)) f).symm
  rw [e, Fintype.sum_prod_type]
  refine Finset.sum_congr rfl fun t _ => ?_
  unfold tileSum
  rw [dif_pos t.isLt]
  refine Finset.sum_congr rfl fun r _ => ?_
  refine congrArg f (Fin.ext ?_)
  show r.val + 2048 * t.val = 2048 * t.val + r.val
  omega

/-- So the flat sum of the rows' terms is what the two groups of four tiles accumulate. -/
theorem sum_rows_eq_groups (f : Fin 16384 → EReal) :
    ∑ n : Fin 16384, f n = groupAcc (tileSum f) 3 + groupAcc (tileSum f) 7 := by
  rw [groupAcc_total, sum_rows_eq_tiles]

end Cert.LabelDist

end
-- ==== Proof.RefLoss.lean ====
import proofs.«426345_j6777458393605_3_alg».proof.Proof.Gen.ReferenceIdeal.Read
import proofs.«426345_j6777458393605_3_alg».proof.Proof.Spec
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen Cert.ReferenceIdeal.Read Cert.LabelDist

/-- A 32-bit word below 2³¹ is not negative when read signed: compared signed with zero it gives the bit 0. -/
private theorem slt_zero_of_small (a : BitVec 32) (h : a.toNat < 2 ^ 31) : IntOp.cmpi .slt a 0#32 = 0#1 := by
  unfold IntOp.cmpi
  have hi : a.toInt = a.toNat := BitVec.toInt_eq_toNat_of_lt (by omega)
  have hs : a.slt 0#32 = false := by
    simp only [BitVec.slt, hi, BitVec.toInt_zero, decide_eq_false_iff_not, not_lt]
    exact Int.natCast_nonneg _
  simp only [hs]
  rfl

/-- The row-number word of row n: the counter is n, it is not negative, so the wrap-around branch is not taken. -/
private theorem row_word (n : Fin 16384) : val_main_v19 (F := Ideal) (ix1 n) = BitVec.ofNat 32 n.val := by
  rw [val_main_v19_apply, val_main_v16_apply, val_main_v14_apply, val_main_v15_apply, val_main_c_apply]
  have hn : (BitVec.ofNat 32 (ix1 n 0).val).toNat < 2 ^ 31 := by
    show (BitVec.ofNat 32 n.val).toNat < 2 ^ 31
    rw [BitVec.toNat_ofNat]; have := n.isLt; omega
  rw [slt_zero_of_small _ hn, select_zero]

/-- The normalised label word of row n: a label below 1000 is not negative, so nothing is added to it. -/
private theorem label_word (lab : IVec S16384 32) (n : Fin 16384) (h : (lab (ix1 n)).toNat < 1000) :
    val_main_v24 (F := Ideal) lab (ix1 n) = lab (ix1 n) := by
  rw [val_main_v24_apply, val_main_v21_apply, val_main_v20_apply, val_main_c_3_apply]
  rw [slt_zero_of_small _ (by omega), select_zero]

local notation "GD" => gather_S16384x1000_S16384x2_S16384_n_01_n_n_01_1_11

/-- Column 0 of the start indices, at row n, holds the row-number word n: the two columns were joined along axis 1, each
    of extent one, so position 0 falls in the first piece. -/
private theorem idx_col0 (lab : IVec S16384 32) (n : Fin 16384) :
    val_main_v27 (F := Ideal) lab (ix2 n (0 : Fin 2)) = BitVec.ofNat 32 n.val := by
  unfold val_main_v27
  rw [concatenate_pair_apply_left (1 : Fin S16384x2.rank) (val_main_v25 (F := Ideal)) (val_main_v26 (F := Ideal) lab)
    concatenates_S16384x1_S16384x1_S16384x2_d1 (ix2 n (0 : Fin 2)) rfl (ix2 n (0 : Fin 1))
    (fun b => by match b with | ⟨0, _⟩ => rfl | ⟨1, _⟩ => rfl)]
  rw [val_main_v25_apply]
  have e : idx_main_v25 (ix2 n (0 : Fin 1)) = ix1 n := funext fun a => Fin.ext (by match a with | ⟨0, _⟩ => rfl)
  rw [e, row_word]

/-- Column 1 of the start indices, at row n, holds the label word itself when the label is below 1000: it sits in the
    second joined piece at position 0, and the normalisation leaves it unchanged. -/
private theorem idx_col1 (lab : IVec S16384 32) (n : Fin 16384) (h : (lab (ix1 n)).toNat < 1000) :
    val_main_v27 (F := Ideal) lab (ix2 n (1 : Fin 2)) = lab (ix1 n) := by
  unfold val_main_v27
  rw [concatenate_pair_apply_right (1 : Fin S16384x2.rank) (val_main_v25 (F := Ideal)) (val_main_v26 (F := Ideal) lab)
    concatenates_S16384x1_S16384x1_S16384x2_d1 (ix2 n (1 : Fin 2)) rfl rfl (ix2 n (0 : Fin 1))
    (fun b hb => by
      match b with
      | ⟨0, _⟩ => rfl
      | ⟨1, _⟩ => exact absurd rfl hb)
    rfl]
  rw [val_main_v26_apply]
  have e : idx_main_v26 (ix2 n (0 : Fin 1)) = ix1 n := funext fun a => Fin.ext (by match a with | ⟨0, _⟩ => rfl)
  rw [e, label_word lab n h]

/-- The gather read at row n: both operand axes are collapsed and both are named by the start index map, so the element
    read is the operand's at (first start component, second start component), each read signed and clamped into its axis. -/
private theorem gather_at {α : Type} (y : S16384x1000.Idx → α) (idx : IVec S16384x2 32) (n : Fin 16384) :
    Host.gather GD y idx (ix1 n)
      = y (ix2 (⟨min (idx (ix2 n (0 : Fin 2))).toInt.toNat 16383, by omega⟩ : Fin 16384)
               (⟨min (idx (ix2 n (1 : Fin 2))).toInt.toNat 999, by omega⟩ : Fin 1000)) := by
  unfold Host.gather
  congr 1
  funext a
  refine Fin.ext ?_
  match a with
  | ⟨0, _⟩ =>
    show GatherDims.start GD (ix1 n) idx 0 + GatherDims.batchCoord GD (ix1 n) 0 + GatherDims.offCoord GD (ix1 n) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin S16384x1000.rank) ∈ (GatherDims.startIndexMap GD) by decide)]
    have hsi : GatherDims.siIdx GD (ix1 n) ⟨List.idxOf (0 : Fin S16384x1000.rank) (GatherDims.startIndexMap GD),
        List.idxOf_lt_length_iff.2 (by decide)⟩ = ix2 n (0 : Fin 2) := by
      funext b; refine Fin.ext ?_
      match b with
      | ⟨0, _⟩ => rfl
      | ⟨1, _⟩ => rfl
    rw [hsi]
    rfl
  | ⟨1, _⟩ =>
    show GatherDims.start GD (ix1 n) idx 1 + GatherDims.batchCoord GD (ix1 n) 1 + GatherDims.offCoord GD (ix1 n) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin S16384x1000.rank) ∈ (GatherDims.startIndexMap GD) by decide)]
    have hsi : GatherDims.siIdx GD (ix1 n) ⟨List.idxOf (1 : Fin S16384x1000.rank) (GatherDims.startIndexMap GD),
        List.idxOf_lt_length_iff.2 (by decide)⟩ = ix2 n (1 : Fin 2) := by
      funext b; refine Fin.ext ?_
      match b with
      | ⟨0, _⟩ => rfl
      | ⟨1, _⟩ => rfl
    rw [hsi]
    rfl

/-- The gathered value of row n is the distance matrix at (n, label n): the row word is n and the label word is the
    label, both inside their axes, so neither clamp moves them. -/
private theorem v28_at (x : FVec Ideal S16384x2048 .f32) (lab : IVec S16384 32) (w : FVec Ideal S1000x2048 .f32)
    (ℓ : Fin 16384 → Fin 1000) (hℓ : ∀ n : Fin 16384, (lab (ix1 n)).toNat = (ℓ n).val) (n : Fin 16384) :
    val_main_v28 (F := Ideal) x lab w (ix1 n) = val_main_v13 (F := Ideal) x w (ix2 n (ℓ n)) := by
  unfold val_main_v28
  rw [gather_at]
  have hn := n.isLt
  have hc := (ℓ n).isLt
  have hl : (lab (ix1 n)).toNat < 1000 := by rw [hℓ n]; exact hc
  have h0 : min (val_main_v27 (F := Ideal) lab (ix2 n (0 : Fin 2))).toInt.toNat 16383 = n.val := by
    rw [idx_col0]
    have ht : (BitVec.ofNat 32 n.val).toNat = n.val := by rw [BitVec.toNat_ofNat]; omega
    rw [BitVec.toInt_eq_toNat_of_lt (by rw [ht]; omega), ht, Int.toNat_natCast]
    omega
  have h1 : min (val_main_v27 (F := Ideal) lab (ix2 n (1 : Fin 2))).toInt.toNat 999 = (ℓ n).val := by
    rw [idx_col1 lab n hl, BitVec.toInt_eq_toNat_of_lt (by omega), Int.toNat_natCast, hℓ n]
    omega
  exact congrArg (val_main_v13 (F := Ideal) x w) (congrArg₂ ix2 (Fin.ext h0) (Fin.ext h1))

/-- The distance matrix at (n, c) is the expanded squared distance of row n of x to centre c: the two squared norms,
    each a row sum started from zero and broadcast across the matrix, less twice the inner product. -/
private theorem dist_at (x : FVec Ideal S16384x2048 .f32) (w : FVec Ideal S1000x2048 .f32) (n : Fin 16384) (c : Fin 1000) :
    val_main_v13 (F := Ideal) x w (ix2 n c) = dist x w n c := by
  have e1 : ∀ k : Fin 2048, idx_main_v1 (idx_main_v2 (idx_main_v6 (ix2 n c))) k = ix2 n k := fun k =>
    funext fun a => Fin.ext (by match a with | ⟨0, _⟩ => rfl | ⟨1, _⟩ => rfl)
  have e2 : ∀ k : Fin 2048, idx_main_v4 (idx_main_v5 (idx_main_v7 (ix2 n c))) k = ix2 c k := fun k =>
    funext fun a => Fin.ext (by match a with | ⟨0, _⟩ => rfl | ⟨1, _⟩ => rfl)
  have e3 : ∀ k : Fin 2048, lidx_main_v10 (ix2 n c) k = ix2 n k := fun k =>
    funext fun a => Fin.ext (by match a with | ⟨0, _⟩ => rfl | ⟨1, _⟩ => rfl)
  have e4 : ∀ k : Fin 2048, idx_main_v9 (ridx_main_v10 (ix2 n c) k) = ix2 c k := fun k =>
    funext fun a => Fin.ext (by match a with | ⟨0, _⟩ => rfl | ⟨1, _⟩ => rfl)
  rw [val_main_v13_apply, val_main_v8_apply, val_main_v12_apply, val_main_v6_apply, val_main_v7_apply,
    val_main_v2_apply, val_main_v5_apply, val_main_v1_apply, val_main_v4_apply, val_main_v11_apply,
    val_main_cst_1_apply, val_main_v10_apply, val_main_cst_apply, val_main_cst_0_apply]
  simp only [val_main_v0_apply, val_main_v3_apply, val_main_v9_apply, e1, e2, e3, e4, Ideal.subf_def, Ideal.addf_def,
    Ideal.mulf_def, Ideal.ofBits_def, Ideal.ofBits_zero_f32, zero_add]
  rfl

/-- The reference's result, at the extended reals, is the loss: when every label is a centre's number the gather
    reads the distance matrix at (n, label n), nothing is clamped or wrapped, and the rest is the flat sum and the quotient. -/
theorem ref_loss (x : FVec Ideal S16384x2048 .f32) (lab : IVec S16384 32) (w : FVec Ideal S1000x2048 .f32)
    (ℓ : Fin 16384 → Fin 1000) (hℓ : ∀ n : Fin 16384, (lab (ix1 n)).toNat = (ℓ n).val) :
    val_main_v31 (F := Ideal) x lab w = fun _ => loss x w ℓ := by
  funext i
  rw [val_main_v31_apply, val_main_v30_apply, val_main_cst_8_apply, val_main_cst_7_apply]
  simp only [Ideal.hostDivf_def, Ideal.ofBits_def, Ideal.ofBits_zero_f32, zero_add]
  unfold loss
  refine congrArg (fun s => Ideal.div s rows) ?_
  rw [← Equiv.sum_comp (idxEquiv1 (n := 16384)).symm]
  refine Finset.sum_congr rfl fun n _ => ?_
  show val_main_v29 (F := Ideal) x lab w (ix1 n) = rowLoss x w n (ℓ n)
  rw [val_main_v29_apply, val_main_call0_v2_apply, val_main_call0_v4_apply, val_main_call0_v3_apply,
    val_main_cst_6_apply, val_main_call0_v1_apply, val_main_call0_v0_apply, val_main_cst_5_apply,
    v28_at x lab w ℓ hℓ n, dist_at]
  simp only [Ideal.minimumf_def, Ideal.maximumf_def, Ideal.ofBits_def]
  rfl

end Cert.ReferenceIdeal.RefValue

end
-- ==== Proof.KernelPieces.lean ====
import proofs.«426345_j6777458393605_3_alg».proof.Proof.Gen.KernelIdeal.Frame
import Idealize.ShloMosaic.Lib.Pipeline.Value
import Idealize.ShloMosaic.Lib.Tactic

noncomputable section

open scoped BigOperators

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The upper clip bound as the body spells it. -/
abbrev hiW : F .f32 := Scalar.ofBits .f32 0x5368D4A5#32

theorem sout_B (c : Dev nD) (i : grid0.Coords) (a2 : Memref sig .tc .vmem S2048x2048 .f32) (h2 : a2.IsWhole) (a3 : Memref sig .tc .vmem S2048x1 .i32) (h3 : a3.IsWhole) (a4 : Memref sig .tc .vmem S1024x2048 .bf16) (h4 : a4.IsWhole) (a5 : Memref sig .tc .vmem S1x1024 .f32) (h5 : a5.IsWhole) (a6 : Memref sig .tc .vmem S8x128 .f32) (h6 : a6.IsWhole) (a7 : Memref sig .tc .vmem S1x1 .f32) (h7 : a7.IsWhole) (hc : ¬cond0_0 i)
    (x0 : Vec F S2048x2048 .f32) (x1 : Vec F S2048x1 .i32) (x2 : Vec F S1024x2048 .bf16) (x3 : Vec F S1x1024 .f32) (xs0 : Vec F S1x1 .f32) :
    sout0_B_0 c i a2 h2 a3 h3 a4 h4 a5 h5 a6 h6 a7 h7 hc x0 x1 x2 x3 xs0 = k0_pay1 (hiW (F := F)) (k0_pay4 x0 x2 x3 x1) xs0 := by
  unfold sout0_B_0
  rw [View.read_writes_eq_canon _ _ _ (scover0_B_0 c i a2 h2 a3 h3 a4 h4 a5 h5 a6 h6 a7 h7 hc x0 x1 x2 x3 xs0)]
  unfold kernelRun0_B
  dsimp only
  sl_unfold_words
  rw [View.canon_unit_zero hz]
  simp only [View.readAt_eq_ld, h2.read_unread, h3.read_unread, h4.read_unread, h5.read_unread, h7.read_unread,
    View.ld_unit_zero (S := S2048x2048) hz, View.ld_unit_zero (S := S1024x2048) hz, View.ld_unit_zero (S := S1x1024) hz,
    View.ld_unit_zero (S := S2048x1) hz, View.ld_unit_zero (S := S1x1) hz]

theorem sout_A (c : Dev nD) (i : grid0.Coords) (a2 : Memref sig .tc .vmem S2048x2048 .f32) (h2 : a2.IsWhole) (a3 : Memref sig .tc .vmem S2048x1 .i32) (h3 : a3.IsWhole) (a4 : Memref sig .tc .vmem S1024x2048 .bf16) (h4 : a4.IsWhole) (a5 : Memref sig .tc .vmem S1x1024 .f32) (h5 : a5.IsWhole) (a6 : Memref sig .tc .vmem S8x128 .f32) (h6 : a6.IsWhole) (a7 : Memref sig .tc .vmem S1x1 .f32) (h7 : a7.IsWhole) (hc : cond0_0 i)
    (x0 : Vec F S2048x2048 .f32) (x1 : Vec F S2048x1 .i32) (x2 : Vec F S1024x2048 .bf16) (x3 : Vec F S1x1024 .f32) :
    sout0_A_0 c i a2 h2 a3 h3 a4 h4 a5 h5 a6 h6 a7 h7 hc x0 x1 x2 x3 = k0_pay1 (hiW (F := F)) (k0_pay4 x0 x2 x3 x1) (k0_pay3 (F := F)) := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread,
    View.ld_unit_zero (S := S2048x2048) hz, View.ld_unit_zero (S := S1024x2048) hz, View.ld_unit_zero (S := S1x1024) hz,
    View.ld_unit_zero (S := S2048x1) hz, View.ld_unit_zero (S := S1x1) hz]

theorem out_B (c : Dev nD) (i : grid0.Coords) (a2 : Memref sig .tc .vmem S2048x2048 .f32) (h2 : a2.IsWhole) (a3 : Memref sig .tc .vmem S2048x1 .i32) (h3 : a3.IsWhole) (a4 : Memref sig .tc .vmem S1024x2048 .bf16) (h4 : a4.IsWhole) (a5 : Memref sig .tc .vmem S1x1024 .f32) (h5 : a5.IsWhole) (a6 : Memref sig .tc .vmem S8x128 .f32) (h6 : a6.IsWhole) (a7 : Memref sig .tc .vmem S1x1 .f32) (h7 : a7.IsWhole) (hc : ¬cond0_0 i)
    (x0 : Vec F S2048x2048 .f32) (x1 : Vec F S2048x1 .i32) (x2 : Vec F S1024x2048 .bf16) (x3 : Vec F S1x1024 .f32) (xs0 : Vec F S1x1 .f32) :
    out0_B_4 c i a2 h2 a3 h3 a4 h4 a5 h5 a6 h6 a7 h7 hc x0 x1 x2 x3 xs0 = k0_pay2 (k0_pay1 (hiW (F := F)) (k0_pay4 x0 x2 x3 x1) xs0) := by
  unfold out0_B_4
  rw [View.read_writes_eq_canon _ _ _ (cover0_B_4 c i a2 h2 a3 h3 a4 h4 a5 h5 a6 h6 a7 h7 hc x0 x1 x2 x3 xs0)]
  unfold kernelRun0_B
  dsimp only
  sl_unfold_words
  rw [View.canon_unit_zero hz]
  simp only [View.readCov_unit_zero (S := S1x1) _ hz, View.readAt_eq_ld, h2.read_unread, h3.read_unread, h4.read_unread, h5.read_unread, h7.read_unread,
    View.ld_unit_zero (S := S2048x2048) hz, View.ld_unit_zero (S := S1024x2048) hz, View.ld_unit_zero (S := S1x1024) hz,
    View.ld_unit_zero (S := S2048x1) hz, View.ld_unit_zero (S := S1x1) hz]

theorem out_A (c : Dev nD) (i : grid0.Coords) (a2 : Memref sig .tc .vmem S2048x2048 .f32) (h2 : a2.IsWhole) (a3 : Memref sig .tc .vmem S2048x1 .i32) (h3 : a3.IsWhole) (a4 : Memref sig .tc .vmem S1024x2048 .bf16) (h4 : a4.IsWhole) (a5 : Memref sig .tc .vmem S1x1024 .f32) (h5 : a5.IsWhole) (a6 : Memref sig .tc .vmem S8x128 .f32) (h6 : a6.IsWhole) (a7 : Memref sig .tc .vmem S1x1 .f32) (h7 : a7.IsWhole) (hc : cond0_0 i)
    (x0 : Vec F S2048x2048 .f32) (x1 : Vec F S2048x1 .i32) (x2 : Vec F S1024x2048 .bf16) (x3 : Vec F S1x1024 .f32) :
    out0_A_4 c i a2 h2 a3 h3 a4 h4 a5 h5 a6 h6 a7 h7 hc x0 x1 x2 x3 = k0_pay2 (k0_pay1 (hiW (F := F)) (k0_pay4 x0 x2 x3 x1) (k0_pay3 (F := F))) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz]
  simp only [View.readCov_cons_toLoadRect, View.readCov_unit_zero (S := S1x1) _ hz, View.readAt_eq_ld, h2.read_unread, h3.read_unread, h4.read_unread, h5.read_unread,
    View.ld_unit_zero (S := S2048x2048) hz, View.ld_unit_zero (S := S1024x2048) hz, View.ld_unit_zero (S := S1x1024) hz,
    View.ld_unit_zero (S := S2048x1) hz, View.ld_unit_zero (S := S1x1) hz]

end Cert.KernelIdeal.Pieces

end
-- ==== Proof.KernelAcc.lean ====
import proofs.«426345_j6777458393605_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- The one-column index set [1, 2048, 1] is its middle coordinate: (0, r, 0) ↔ r. -/
def midEquiv : S1x2048x1.Idx ≃ Fin 2048 where
  toFun i := i 1
  invFun r := ix3 0 r 0
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- A 32-bit word of a natural below 2³² equals the zero word exactly when the natural is 0. -/
theorem cmpi_eq_ofNat_zero (n : Nat) (hn : n < 2 ^ 32) :
    IntOp.cmpi .eq (BitVec.ofNat 32 n) 0#32 = if n = 0 then 1#1 else 0#1 := by
  by_cases h : n = 0
  · subst h; rfl
  · have hne : BitVec.ofNat 32 n ≠ 0#32 := by
      intro h'
      have := congrArg BitVec.toNat h'
      simp only [BitVec.toNat_ofNat, BitVec.toNat_zero] at this
      rw [Nat.mod_eq_of_lt hn] at this
      exact h this
    rw [if_neg h]
    have hb : (BitVec.ofNat 32 n == 0#32) = false := beq_eq_false_iff_ne.2 hne
    show BitVec.ofBool (BitVec.ofNat 32 n == 0#32) = 0#1
    rw [hb]
    rfl

/-- The accumulator's reset value is the extended real 0. -/
theorem pay3_apply (j : S1x1.Idx) : k0_pay3 (F := Ideal) j = 0 := by
  unfold k0_pay3
  rw [shapeCast_self, broadcast_apply]
  exact Ideal.ofBits_zero_f32

/-- The accumulator after a tile: what it held plus the sum over the tile's 2048 rows of the row value clipped from above. -/
theorem pay1_apply (b : Ideal .f32) (v : FVec Ideal S2048x1 .f32) (a : Vec Ideal S1x1 .f32) (j : S1x1.Idx) :
    k0_pay1 (F := Ideal) b v a j = a j + ∑ r : Fin 2048, min b (v (ix2 r 0)) := by
  unfold k0_pay1
  dsimp only
  rw [shapeCast_self, addf_apply, broadcast_apply]
  congr 1
  unfold extractAt
  rw [shapeCast_apply _ _ _ (ix1 0) (by rw [Shape.rowMajor_val_one, Shape.rowMajor_val_three]; rfl)]
  refine (Ideal.multiReduction_add_total (s := S1x2048x1) (t := S1) _ _ reduces_S1x2048x1_S1
    (fun c => by match c with | ⟨0, _⟩ => rfl) _ _ (ix1 0)).trans ?_
  refine Fintype.sum_equiv midEquiv _ _ fun i => ?_
  obtain ⟨r, rfl⟩ := midEquiv.symm.surjective i
  rw [Equiv.apply_symm_apply]
  show shapeCast S1x2048x1 _ _ (ix3 0 r 0) = _
  rw [shapeCast_apply _ _ _ (ix2 r 0) (by rw [Shape.rowMajor_val_two, Shape.rowMajor_val_three]; simp)]
  rw [minimumf_apply, broadcast_apply]

/-- The output block: the accumulator at entry (0,0), zero elsewhere. -/
theorem pay2_apply (a : Vec Ideal S1x1 .f32) (y0 : Fin 8) (y1 : Fin 128) :
    k0_pay2 (F := Ideal) a (ix2 y0 y1) = if y0.val = 0 ∧ y1.val = 0 then a (ix2 0 0) else 0 := by
  unfold k0_pay2
  dsimp only
  rw [select_apply, broadcast_apply, broadcast_apply]
  have hx : extractAt ![0, 0] a inpos_S1x1_p0_0 = a (ix2 0 0) := by
    unfold extractAt
    refine congrArg a (funext fun d => ?_)
    match d with
    | ⟨0, _⟩ => rfl
    | ⟨1, _⟩ => rfl
  have hz : (Scalar.ofBits .f32 0x00000000#32 : Ideal .f32) = 0 := Ideal.ofBits_zero_f32
  rw [hx, hz]
  have hc : andi (cmpi .eq (iota .tc S8x128 32 [0] iota_S8x128_d0_w32) (broadcast S8x128 0#32))
        (cmpi .eq (iota .tc S8x128 32 [1] iota_S8x128_d1_w32) (broadcast S8x128 0#32)) (ix2 y0 y1)
      = IntOp.andi (IntOp.cmpi .eq (BitVec.ofNat 32 y0.val) 0#32) (IntOp.cmpi .eq (BitVec.ofNat 32 y1.val) 0#32) := by
    show IntOp.andi (IntOp.cmpi .eq (iota .tc S8x128 32 [0] iota_S8x128_d0_w32 (ix2 y0 y1)) 0#32)
        (IntOp.cmpi .eq (iota .tc S8x128 32 [1] iota_S8x128_d1_w32 (ix2 y0 y1)) 0#32) = _
    rw [iota_single_apply, iota_single_apply]
  rw [hc, cmpi_eq_ofNat_zero _ (by have := y0.isLt; omega), cmpi_eq_ofNat_zero _ (by have := y1.isLt; omega)]
  have e11 : IntOp.andi 1#1 1#1 = 1#1 := by decide
  have e10 : IntOp.andi 1#1 0#1 = 0#1 := by decide
  have e01 : IntOp.andi 0#1 1#1 = 0#1 := by decide
  have e00 : IntOp.andi 0#1 0#1 = 0#1 := by decide
  by_cases h0 : y0.val = 0
  · by_cases h1 : y1.val = 0
    · rw [if_pos h0, if_pos h1, if_pos (And.intro h0 h1), e11, select_one]
    · rw [if_pos h0, if_neg h1, if_neg (fun h : y0.val = 0 ∧ y1.val = 0 => h1 h.2), e10, select_zero]
  · by_cases h1 : y1.val = 0
    · rw [if_neg h0, if_pos h1, if_neg (fun h : y0.val = 0 ∧ y1.val = 0 => h0 h.1), e01, select_zero]
    · rw [if_neg h0, if_neg h1, if_neg (fun h : y0.val = 0 ∧ y1.val = 0 => h0 h.1), e00, select_zero]

end Cert.KernelIdeal.Body

end
-- ==== Proof.KernelBody.lean ====
import proofs.«426345_j6777458393605_3_alg».proof.Proof.Gen.KernelIdeal.Skeleton
import proofs.«426345_j6777458393605_3_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.LabelDist

/-! ## Lane sums kept as a column -/

/-- The sum along the 1024 columns of a 2048×1024 block, kept as a column: at row r it is ∑ₖ v[r,k]. -/
theorem laneSum1024_apply (v : FVec Ideal S2048x1024 .f32) (r : Fin 2048) :
    shapeCast S2048x1 (multiReduction .add [1] S2048 v 0x00000000#32 reduces_S2048x1024_S2048 (.inl rfl) rfl)
        shapeCasts_S2048_S2048x1 (ix2 r 0)
      = ∑ k : Fin 1024, v (ix2 r k) := by
  rw [shapeCast_apply _ shapeCasts_S2048_S2048x1 (ix2 r 0) (ix1 r)
    (by rw [Shape.rowMajor_val_one, Shape.rowMajor_val_two]; show r.val = r.val * 1 + 0; omega)]
  refine (Ideal.multiReduction_add_single (a := 1) v 0x00000000#32 reduces_S2048x1024_S2048 (.inl rfl) rfl (ix1 r)).trans ?_
  refine Finset.sum_congr rfl fun k _ => ?_
  exact congrArg v (funext fun a => Fin.ext (by match a with | ⟨0, _⟩ => rfl | ⟨1, _⟩ => rfl))

/-- The sum along the 2048 columns of a 2048×2048 block, kept as a column: at row r it is ∑ₖ v[r,k]. -/
theorem laneSum2048_apply (v : FVec Ideal S2048x2048 .f32) (r : Fin 2048) :
    shapeCast S2048x1 (multiReduction .add [1] S2048 v 0x00000000#32 reduces_S2048x2048_S2048 (.inl rfl) rfl)
        shapeCasts_S2048_S2048x1 (ix2 r 0)
      = ∑ k : Fin 2048, v (ix2 r k) := by
  rw [shapeCast_apply _ shapeCasts_S2048_S2048x1 (ix2 r 0) (ix1 r)
    (by rw [Shape.rowMajor_val_one, Shape.rowMajor_val_two]; show r.val = r.val * 1 + 0; omega)]
  refine (Ideal.multiReduction_add_single (a := 1) v 0x00000000#32 reduces_S2048x2048_S2048 (.inl rfl) rfl (ix1 r)).trans ?_
  refine Finset.sum_congr rfl fun k _ => ?_
  exact congrArg v (funext fun a => Fin.ext (by match a with | ⟨0, _⟩ => rfl | ⟨1, _⟩ => rfl))

/-- The lane sum of the squares of a row is the row's squared norm. -/
theorem rowsq (x0 : FVec Ideal S2048x2048 .f32) (r : Fin 2048) :
    shapeCast S2048x1 (multiReduction .add [1] S2048 (mulf x0 x0) 0x00000000#32 reduces_S2048x2048_S2048 (.inl rfl) rfl)
        shapeCasts_S2048_S2048x1 (ix2 r 0)
      = sqNorm x0 r :=
  laneSum2048_apply (mulf x0 x0) r

/-! ## The one-hot mask -/

/-- A column number below 1024, as a 32-bit word, reads back as itself. -/
theorem toNat_col (j : Fin 1024) : (BitVec.ofNat 32 j.val).toNat = j.val := by
  rw [BitVec.toNat_ofNat]; exact Nat.mod_eq_of_lt (by have := j.isLt; omega)

/-- The mask's bit at (r, j): column j equals row r's label, and j is a centre's number; with the label the number
    c < 1000 of a centre, the bit is set exactly at j = c. -/
theorem mask_apply (lb : IVec S2048x1 32) (r : Fin 2048) (c : Fin 1024) (hc : c.val < 1000)
    (hl : (lb (ix2 r 0)).toNat = c.val) (j : Fin 1024) :
    andi (cmpi .eq (iota .tc S2048x1024 32 [1] iota_S2048x1024_d1_w32)
            (broadcastTo S2048x1024 (shapeCast S2048x1 lb shapeCasts_S2048x1_S2048x1) broadcasts_S2048x1_S2048x1024))
         (cmpi .slt (iota .tc S2048x1024 32 [1] iota_S2048x1024_d1_w32) (broadcast S2048x1024 1000#32)) (ix2 r j)
      = if j = c then 1#1 else 0#1 := by
  have e1 : iota .tc S2048x1024 32 [1] iota_S2048x1024_d1_w32 (ix2 r j) = BitVec.ofNat 32 j.val :=
    iota_single_apply .tc S2048x1024 32 1 iota_S2048x1024_d1_w32 (ix2 r j)
  have e2 : broadcastTo S2048x1024 (shapeCast S2048x1 lb shapeCasts_S2048x1_S2048x1) broadcasts_S2048x1_S2048x1024 (ix2 r j)
      = lb (ix2 r 0) := by
    rw [shapeCast_self]
    exact broadcastTo_apply lb broadcasts_S2048x1_S2048x1024 (ix2 r j) (ix2 r 0) (fun a => match a with
      | ⟨0, _⟩ => by show r.val = if (2048 : Nat) = 1 then 0 else r.val; rw [if_neg (by decide)]
      | ⟨1, _⟩ => by show 0 = if (1 : Nat) = 1 then 0 else j.val; rw [if_pos rfl])
  show IntOp.andi (IntOp.cmpi .eq (iota .tc S2048x1024 32 [1] iota_S2048x1024_d1_w32 (ix2 r j))
        (broadcastTo S2048x1024 (shapeCast S2048x1 lb shapeCasts_S2048x1_S2048x1) broadcasts_S2048x1_S2048x1024 (ix2 r j)))
      (IntOp.cmpi .slt (iota .tc S2048x1024 32 [1] iota_S2048x1024_d1_w32 (ix2 r j)) 1000#32) = _
  rw [e1, e2]
  by_cases h : j = c
  · subst h
    rw [if_pos rfl]
    refine IntOp.andi_eq_one.2 ⟨IntOp.cmpi_eq.2 ?_, IntOp.cmpi_slt.2 ?_⟩
    · exact BitVec.eq_of_toNat_eq ((toNat_col j).trans hl.symm)
    · have hj := toNat_col j
      rw [BitVec.toInt_eq_toNat_cond, BitVec.toInt_eq_toNat_cond, hj]
      have : (1000#32 : BitVec 32).toNat = 1000 := rfl
      rw [this]
      have := j.isLt
      split_ifs <;> omega
  · rw [if_neg h]
    refine eq_zero_of_ne_one fun h1 => h (Fin.ext ?_)
    have h2 := IntOp.cmpi_eq.1 (IntOp.andi_eq_one.1 h1).1
    have h3 := congrArg BitVec.toNat h2
    rw [toNat_col, hl] at h3
    exact h3

/-- A lane sum through the one-hot mask picks the labelled column: for any 2048×1024 block v, the sum over the columns
    of (v where the mask is set, else 0) at row r is v[r,c]. -/
theorem onehot_sum (m : IVec S2048x1024 1) (v : FVec Ideal S2048x1024 .f32) (r : Fin 2048) (c : Fin 1024)
    (hm : ∀ j : Fin 1024, m (ix2 r j) = if j = c then 1#1 else 0#1) :
    shapeCast S2048x1 (multiReduction .add [1] S2048
        (select m v (broadcast S2048x1024 (Scalar.ofBits (F := Ideal) .f32 0x00000000#32))) 0x00000000#32
        reduces_S2048x1024_S2048 (.inl rfl) rfl) shapeCasts_S2048_S2048x1 (ix2 r 0)
      = v (ix2 r c) := by
  rw [laneSum1024_apply]
  have e : ∀ j : Fin 1024, select m v (broadcast S2048x1024 (Scalar.ofBits (F := Ideal) .f32 0x00000000#32)) (ix2 r j)
      = if j = c then v (ix2 r j) else 0 := by
    intro j
    rw [select_apply, hm j]
    by_cases h : j = c
    · rw [if_pos h, if_pos h, select_one]
    · rw [if_neg h, if_neg h, select_zero]
      exact Ideal.ofBits_zero_f32
  rw [Finset.sum_congr rfl fun j _ => e j, Finset.sum_ite_eq' Finset.univ c, if_pos (Finset.mem_univ c)]

/-! ## The product with the centres -/

/-- The left operand's index for output (i, ·) and contraction coordinate q has row i. -/
theorem lhs_mm_0 (i : S2048x1024.Idx) (q : dot_S2048x2048_S1024x2048_S2048x1024_1_1_0_0_n_n.contr.Idx) :
    (dot_S2048x2048_S1024x2048_S2048x1024_1_1_0_0_n_n.lhsIdx i q 0).val = (i 0).val := by
  unfold DotDims.lhsIdx
  rw [dif_neg (show ¬(0 : Fin S2048x2048.rank) ∈ dot_S2048x2048_S1024x2048_S2048x1024_1_1_0_0_n_n.lhsBatch by decide), dif_pos (show (0 : Fin S2048x2048.rank) ∈ dot_S2048x2048_S1024x2048_S2048x1024_1_1_0_0_n_n.lhsNonContracting by decide)]
  rfl
/-- … and column q: the left operand is contracted along its columns. -/
theorem lhs_mm_1 (i : S2048x1024.Idx) (q : dot_S2048x2048_S1024x2048_S2048x1024_1_1_0_0_n_n.contr.Idx) :
    (dot_S2048x2048_S1024x2048_S2048x1024_1_1_0_0_n_n.lhsIdx i q 1).val = (q ⟨0, by decide⟩).val :=
  dot_S2048x2048_S1024x2048_S2048x1024_1_1_0_0_n_n.lhsIdx_val_of_single rfl i q
/-- The right operand's index for output (·, j) and contraction coordinate q has row j (the centres enter transposed). -/
theorem rhs_mm_0 (i : S2048x1024.Idx) (q : dot_S2048x2048_S1024x2048_S2048x1024_1_1_0_0_n_n.contr.Idx) :
    (dot_S2048x2048_S1024x2048_S2048x1024_1_1_0_0_n_n.rhsIdx i q 0).val = (i 1).val := by
  unfold DotDims.rhsIdx
  rw [dif_neg (show ¬(0 : Fin S1024x2048.rank) ∈ dot_S2048x2048_S1024x2048_S2048x1024_1_1_0_0_n_n.rhsBatch by decide), dif_pos (show (0 : Fin S1024x2048.rank) ∈ dot_S2048x2048_S1024x2048_S2048x1024_1_1_0_0_n_n.rhsNonContracting by decide)]
  rfl
/-- … and column q: the right operand is contracted along its columns too. -/
theorem rhs_mm_1 (i : S2048x1024.Idx) (q : dot_S2048x2048_S1024x2048_S2048x1024_1_1_0_0_n_n.contr.Idx) :
    (dot_S2048x2048_S1024x2048_S2048x1024_1_1_0_0_n_n.rhsIdx i q 1).val = (q ⟨0, by decide⟩).val :=
  dot_S2048x2048_S1024x2048_S2048x1024_1_1_0_0_n_n.rhsIdx_val_of_single rfl i q

/-- The product of the block with the transposed centres, into zero, at (r, c) is the inner product of row r with
    centre c (narrowing the block's format changes nothing at the extended reals). -/
theorem matmul_at (x0 : FVec Ideal S2048x2048 .f32) (wb : FVec Ideal S1024x2048 .bf16) (r : Fin 2048) (c : Fin 1024) :
    matmul dot_S2048x2048_S1024x2048_S2048x1024_1_1_0_0_n_n none (truncf .bf16 x0 bitsLt_bf16_f32)
        (shapeCast S1024x2048 wb shapeCasts_S1024x2048_S1024x2048) (constant S2048x1024 .f32 0x00000000#32) (ix2 r c)
      = inner x0 wb r c := by
  rw [shapeCast_self]
  simp only [matmul]
  rw [Ideal.matmul_constant_zero_apply, ← Equiv.sum_comp (contrEquiv1 dot_S2048x2048_S1024x2048_S2048x1024_1_1_0_0_n_n 2048 rfl rfl).symm]
  unfold LabelDist.inner
  refine Finset.sum_congr rfl fun k _ => ?_
  have hk := contrEquiv1_symm_val dot_S2048x2048_S1024x2048_S2048x1024_1_1_0_0_n_n 2048 rfl rfl k
  have el : dot_S2048x2048_S1024x2048_S2048x1024_1_1_0_0_n_n.lhsIdx (ix2 r c) ((contrEquiv1 dot_S2048x2048_S1024x2048_S2048x1024_1_1_0_0_n_n 2048 rfl rfl).symm k) = ix2 r k := funext fun a => Fin.ext (by
    match a with
    | ⟨0, _⟩ => exact lhs_mm_0 _ _
    | ⟨1, _⟩ => exact (lhs_mm_1 _ _).trans hk)
  have er : dot_S2048x2048_S1024x2048_S2048x1024_1_1_0_0_n_n.rhsIdx (ix2 r c) ((contrEquiv1 dot_S2048x2048_S1024x2048_S2048x1024_1_1_0_0_n_n 2048 rfl rfl).symm k) = ix2 c k := funext fun a => Fin.ext (by
    match a with
    | ⟨0, _⟩ => exact rhs_mm_0 _ _
    | ⟨1, _⟩ => exact (rhs_mm_1 _ _).trans hk)
  rw [el, er]
  rfl

/-! ## The row of the centres' squared norms -/

/-- The 1×1024 row of squared norms, spread over the 2048 rows, reads at (r, c) its entry c. -/
theorem sqrow_apply (sq : FVec Ideal S1x1024 .f32) (r : Fin 2048) (c : Fin 1024) :
    broadcastTo S2048x1024 (shapeCast S1x1024 (shapeCast S1x1024 sq shapeCasts_S1x1024_S1x1024) shapeCasts_S1x1024_S1x1024)
        broadcasts_S1x1024_S2048x1024 (ix2 r c)
      = sq (ix2 0 c) := by
  rw [shapeCast_self, shapeCast_self]
  exact broadcastTo_apply sq broadcasts_S1x1024_S2048x1024 (ix2 r c) (ix2 0 c) (fun a => match a with
    | ⟨0, _⟩ => by show 0 = if (1 : Nat) = 1 then 0 else r.val; rw [if_pos rfl]
    | ⟨1, _⟩ => by show c.val = if (1024 : Nat) = 1 then 0 else c.val; rw [if_neg (by decide)])

/-- Row r of a tile, clipped from below: the one-hot sums pick the labelled centre's squared norm and inner product,
    when the label is a centre's number. -/
theorem pay4_apply (x0 : Vec Ideal S2048x2048 .f32) (wb : Vec Ideal S1024x2048 .bf16) (sq : Vec Ideal S1x1024 .f32)
    (lb : Vec Ideal S2048x1 .i32) (r : Fin 2048) (c : Fin 1024) (hc : c.val < 1000) (hl : (lb (ix2 r 0)).toNat = c.val) :
    k0_pay4 (F := Ideal) x0 wb sq lb (ix2 r 0)
      = max lo ((sqNorm x0 r + sq (ix2 0 c)) - two * inner x0 wb r c) := by
  have hm := mask_apply lb r c hc hl
  unfold k0_pay4
  dsimp only
  rw [maximumf_apply, subf_apply, addf_apply, mulf_apply, broadcast_apply, broadcast_apply,
    rowsq, onehot_sum _ _ r c hm, onehot_sum _ _ r c hm, matmul_at, sqrow_apply]
  rfl

end Cert.KernelIdeal.Body

end
-- ==== Proof.KernelBlocks.lean ====
import proofs.«426345_j6777458393605_3_alg».proof.Proof.Gen.KernelIdeal.Frame
import proofs.«426345_j6777458393605_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen Cert.LabelDist

variable (m : (ℓ : Loc nD τ sig) → Buf (Elt Ideal) ℓ)

/-- The three argument arrays as launched, by their literal types. -/
abbrev xarr (c : Dev nD) : Vec Ideal S16384x2048 .f32 := m ((c.tc : Thread nD τ).loc main_arg0)
abbrev larr (c : Dev nD) : Vec Ideal S16384 .i32 := m ((c.tc : Thread nD τ).loc main_arg1)
abbrev warr (c : Dev nD) : Vec Ideal S1000x2048 .f32 := m ((c.tc : Thread nD τ).loc main_arg2)

/-- The four input blocks the body reads at grid point t, by their literal types. -/
abbrev xblk (c : Dev nD) (t : Fin cfg0.N) : Vec Ideal S2048x2048 .f32 := iblk m c 0 t
abbrev lblk (c : Dev nD) (t : Fin cfg0.N) : Vec Ideal S2048x1 .i32 := iblk m c 1 t
abbrev wblk (c : Dev nD) (t : Fin cfg0.N) : Vec Ideal S1024x2048 .bf16 := iblk m c 2 t
abbrev sblk (c : Dev nD) (t : Fin cfg0.N) : Vec Ideal S1x1024 .f32 := iblk m c 3 t

/-- Grid point t is tile t of the rows. -/
def tile (t : Fin cfg0.N) : Fin 8 := ⟨t.val, lt_of_lt_of_eq t.isLt (show cfg0.N = 8 from N_0)⟩

/-! ## Small general facts -/

/-- A length-a vector cast to [a, 1] reads, at (i, 0), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A left fold of steps each of which either sets the value at i to v (a hit) or leaves the value at i alone (a miss)
    ends with v at i, provided it starts with v there or some step of the list is a hit. -/
theorem foldl_point {ι α β : Type} (step : (ι → α) → β → (ι → α)) (i : ι) (v : α) (hit : β → Prop)
    (hhit : ∀ r n, hit n → step r n i = v) (hmiss : ∀ r n, ¬ hit n → step r n i = r i) :
    ∀ (L : List β) (x : ι → α), (x i = v ∨ ∃ n ∈ L, hit n) → L.foldl step x i = v := by
  intro L
  induction L with
  | nil =>
    intro x h
    rcases h with h | ⟨n, hn, _⟩
    · exact h
    · exact absurd hn List.not_mem_nil
  | cons a L ih =>
    intro x h
    rw [List.foldl_cons]
    apply ih
    by_cases ha : hit a
    · exact Or.inl (hhit x a ha)
    · rcases h with h | ⟨n, hn, hh⟩
      · exact Or.inl ((hmiss x a ha).trans h)
      · rcases List.mem_cons.mp hn with rfl | hn'
        · exact absurd hh ha
        · exact Or.inr ⟨n, hn', hh⟩

/-- A scatter whose body returns the update, read at a result index that exactly one update index lands on:
    that update's element. -/
theorem scatter_set_apply {s si u : Shape} {w : Nat} {α : Type} (d : ScatterDims s si u) (x : s.Idx → α) (idx : IVec si w)
    (upd : u.Idx → α) (i : s.Idx) (j0 : u.Idx) (hj0 : d.resultIdx? j0 idx = some i)
    (hinj : ∀ j, d.resultIdx? j idx = some i → j = j0) :
    Host.scatter d (fun _ b => b) x idx upd i = upd j0 := by
  unfold Host.scatter
  refine foldl_point _ i (upd j0) (fun n => d.resultIdx? (u.rowMajor.symm n) idx = some i) ?_ ?_ _ x
    (Or.inr ⟨u.rowMajor j0, List.mem_finRange _, ?_⟩)
  · intro r n h
    simp only [h]
    rw [if_pos trivial]
    exact congrArg upd (hinj _ h)
  · intro r n h
    cases hres : d.resultIdx? (u.rowMajor.symm n) idx with
    | none => rfl
    | some i' =>
      have hne : i ≠ i' := fun e => h (by rw [hres, e])
      simp only [if_neg hne]
  · show d.resultIdx? (u.rowMajor.symm (u.rowMajor j0)) idx = some i
    rw [Equiv.symm_apply_apply]
    exact hj0

/-! ## The centres written into the zero array -/

/-- An index of the centres seen in the padded array: the same coordinates. -/
def padIdx (j : S1000x2048.Idx) : S1024x2048.Idx := fun a =>
  ⟨(j a).val, lt_of_lt_of_le (j a).isLt ((by decide : ∀ a : Fin 2, S1000x2048.size a ≤ S1024x2048.size a) a)⟩

/-- The scatter's dimension numbers: both update axes are window axes, the one start index names axis 0. -/
abbrev scatDims := scatter_S1024x2048_S1_S1000x2048_01_n_0_0

/-- With every scatter index word zero, the update window starts at the origin. -/
theorem scat_start (j : S1000x2048.Idx) (idx : IVec S1 32) (hidx : ∀ q, idx q = 0#32) (a : Fin 2) :
    scatDims.start j idx a = 0 := by
  unfold ScatterDims.start
  split
  · rw [hidx]; rfl
  · rfl

/-- The window coordinate on each axis is the update index's own coordinate. -/
theorem scat_window (j : S1000x2048.Idx) (a : Fin 2) : scatDims.window j a = (j a).val := by
  match a with
  | ⟨0, _⟩ => rfl
  | ⟨1, _⟩ => rfl

/-- With every scatter index word zero, update index j lands on its own coordinates in the padded array. -/
theorem scat_resultIdx (idx : IVec S1 32) (hidx : ∀ q, idx q = 0#32) (j : S1000x2048.Idx) :
    scatDims.resultIdx? j idx = some (padIdx j) := by
  unfold ScatterDims.resultIdx?
  have H : ∀ a : Fin 2, 0 ≤ scatDims.start j idx a + (scatDims.window j a : Int)
      ∧ scatDims.start j idx a + (scatDims.window j a : Int) < (S1024x2048.size a : Int) := by
    intro a
    rw [scat_start j idx hidx a, scat_window j a]
    have hlt : (j a).val < S1024x2048.size a := (padIdx j a).isLt
    constructor
    · omega
    · omega
  rw [dif_pos H]
  refine congrArg some (funext fun a => Fin.ext ?_)
  show (scatDims.start j idx a + (scatDims.window j a : Int)).toNat = (j a).val
  rw [scat_start j idx hidx a, scat_window j a]
  omega

/-- Distinct update indices land on distinct elements. -/
theorem padIdx_inj {j j' : S1000x2048.Idx} (h : padIdx j = padIdx j') : j = j' :=
  funext fun a => Fin.ext (congrArg (fun f : S1024x2048.Idx => (f a).val) h)

/-- A scatter of the update array at the origin, its body returning the update, read at an update index's own
    coordinates: the update's element. -/
theorem scatter_origin_apply {α : Type} (x : S1024x2048.Idx → α) (idx : IVec S1 32) (hidx : ∀ q, idx q = 0#32)
    (upd : S1000x2048.Idx → α) (j : S1000x2048.Idx) :
    Host.scatter scatDims (fun _ b => b) x idx upd (padIdx j) = upd j :=
  scatter_set_apply scatDims x idx upd (padIdx j) j (scat_resultIdx idx hidx j)
    (fun j' h => padIdx_inj (Option.some.inj ((scat_resultIdx idx hidx j').symm.trans h)))

/-- The padded centres: the centres written over a zero array from the origin. -/
def wpad (c : Dev nD) : Vec Ideal S1024x2048 .f32 :=
  Host.scatter scatDims (fun _ b => b)
    (broadcastInDim S1024x2048 ![] bcast_S_S1024x2048 (constant (F := Ideal) S_ .f32 0x00000000#32))
    (broadcastInDim S1 ![] bcast_S_S1 (constantI S_ 32 0#32)) (warr m c)

/-- The padded centres, spelt out. -/
theorem wpad_def (c : Dev nD) : wpad m c = Host.scatter scatDims (fun _ b => b)
    (broadcastInDim S1024x2048 ![] bcast_S_S1024x2048 (constant (F := Ideal) S_ .f32 0x00000000#32))
    (broadcastInDim S1 ![] bcast_S_S1 (constantI S_ 32 0#32)) (warr m c) := rfl

/-- The padded centres at a real centre's row: that centre's row. -/
theorem wpad_apply (c : Dev nD) (cc : Fin 1024) (k : Fin 2048) (h : cc.val < 1000) :
    wpad m c (ix2 cc k) = warr m c (ix2 ⟨cc.val, h⟩ k) := by
  have hi : (ix2 cc k : S1024x2048.Idx) = padIdx (ix2 ⟨cc.val, h⟩ k) := by
    funext a; apply Fin.ext
    match a with
    | ⟨0, _⟩ => rfl
    | ⟨1, _⟩ => rfl
  have hs := scatter_origin_apply
    (broadcastInDim S1024x2048 ![] bcast_S_S1024x2048 (constant (F := Ideal) S_ .f32 0x00000000#32))
    (broadcastInDim S1 ![] bcast_S_S1 (constantI S_ 32 0#32)) (fun q => rfl) (warr m c) (ix2 ⟨cc.val, h⟩ k)
  rw [← hi] at hs
  rw [wpad_def]
  exact hs

/-! ## The arrays the windows stage, as the region finds them -/

/-- The block index maps over the grid: the row-tiled windows sit at block (t, 0), the whole-array windows at block (0, 0). -/
theorem blk_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The label window's array is the labels as a column. -/
theorem V_main_v7 (c : Dev nD) :
    (V m c main_v7 : Vec Ideal S16384x1 .i32) = shapeCast S16384x1 (larr m c) shapeCasts_S16384_S16384x1 := by
  show StableHlo.after hostOps0 (fun b => m (c, b)) (Proc.devRef .tc main_v7) = _
  after_results
  rfl

/-- The centre window's array is the padded centres, narrowed (the identity on extended reals). -/
theorem V_main_v3 (c : Dev nD) :
    @Eq (Vec Ideal S1024x2048 .bf16) (V m c main_v3) (truncf (F := Ideal) .bf16 (wpad m c) bitsLt_bf16_f32) := by
  show StableHlo.after hostOps0 (fun b => m (c, b)) (Proc.devRef .tc main_v3) = _
  rw [wpad_def]
  after_results

/-- The squared-norm window's array is the row sums of the padded centres' squares, as a row. -/
theorem V_main_v6 (c : Dev nD) :
    @Eq (Vec Ideal S1x1024 .f32) (V m c main_v6) (shapeCast S1x1024
      (Host.reduceAdd (F := Ideal) (mulf (wpad m c) (wpad m c)) (constant (F := Ideal) S_ .f32 0x00000000#32)
        reducesTo_S1024x2048_S1024_d1 h_S_)
      shapeCasts_S1024_S1x1024) := by
  show StableHlo.after hostOps0 (fun b => m (c, b)) (Proc.devRef .tc main_v6) = _
  rw [wpad_def]
  after_results
  rfl

-- From here on the padded centres are known only by their rows (`wpad_apply`).
attribute [irreducible] wpad

/-- The centre window's block view reads an array of the padded centres' shape at the index the block places its own at. -/
theorem blk2_read (t : Fin cfg0.N) (A : Vec Ideal S1024x2048 .bf16) (y : S1024x2048.Idx) :
    ((cfg0.win 2).blk t).view.read (Elt Ideal) A y = A (((cfg0.win 2).blk t).view.emb y) := rfl

/-- The squared-norm window's block view likewise. -/
theorem blk3_read (t : Fin cfg0.N) (A : Vec Ideal S1x1024 .f32) (y : S1x1024.Idx) :
    ((cfg0.win 3).blk t).view.read (Elt Ideal) A y = A (((cfg0.win 3).blk t).view.emb y) := rfl

/-! ## The four blocks -/

/-- The x block at point t is rows 2048·t … 2048·t + 2047 of x. -/
theorem xblk_apply (c : Dev nD) (t : Fin cfg0.N) (r k : Fin 2048) :
    xblk m c t (ix2 r k) = xarr m c (ix2 (tileRow (tile t) r) k) := by
  show V m c main_arg0 (((cfg0.win 0).blk t).view.emb (ix2 r k)) = xarr m c (ix2 (tileRow (tile t) r) k)
  rw [V_main_arg0]
  refine congrArg _ ?_
  obtain ⟨e0, e1, -⟩ := blk_idx_facts t
  funext a; apply Fin.ext
  match a with
  | ⟨0, _⟩ => show win0_0.index t (0 : Fin 2) * 2048 + 1 * r.val = 2048 * t.val + r.val; omega
  | ⟨1, _⟩ => show win0_0.index t (1 : Fin 2) * 2048 + 1 * k.val = k.val; omega

/-- The label block at point t is the labels of those rows. -/
theorem lblk_apply (c : Dev nD) (t : Fin cfg0.N) (r : Fin 2048) :
    lblk m c t (ix2 r 0) = larr m c (ix1 (tileRow (tile t) r)) := by
  show V m c main_v7 (((cfg0.win 1).blk t).view.emb (ix2 r 0)) = larr m c (ix1 (tileRow (tile t) r))
  rw [V_main_v7]
  have hi : ((cfg0.win 1).blk t).view.emb (ix2 r 0) = (ix2 (tileRow (tile t) r) (0 : Fin 1) : S16384x1.Idx) := by
    obtain ⟨-, -, e0, e1, -⟩ := blk_idx_facts t
    funext a; apply Fin.ext
    match a with
    | ⟨0, _⟩ => show win0_1.index t (0 : Fin 2) * 2048 + 1 * r.val = 2048 * t.val + r.val; omega
    | ⟨1, _⟩ => show win0_1.index t (1 : Fin 2) * 1 + 1 * 0 = 0; omega
  rw [hi]
  exact shapeCast_a_a1_apply _ _ _ _

/-- The centre block is, at every point, the centres padded with 24 zero rows. -/
theorem wblk_apply (c : Dev nD) (t : Fin cfg0.N) (cc : Fin 1024) (k : Fin 2048) (h : cc.val < 1000) :
    wblk m c t (ix2 cc k) = warr m c (ix2 ⟨cc.val, h⟩ k) := by
  refine (blk2_read t (V m c main_v3) (ix2 cc k)).trans ?_
  have hi : ((cfg0.win 2).blk t).view.emb (ix2 cc k) = (ix2 cc k : S1024x2048.Idx) := by
    obtain ⟨-, -, -, -, e0, e1, -⟩ := blk_idx_facts t
    funext a; apply Fin.ext
    match a with
    | ⟨0, _⟩ => show win0_2.index t (0 : Fin 2) * 1024 + 1 * cc.val = cc.val; omega
    | ⟨1, _⟩ => show win0_2.index t (1 : Fin 2) * 2048 + 1 * k.val = k.val; omega
  rw [hi]
  refine (congrFun (V_main_v3 m c) (ix2 cc k)).trans ?_
  rw [truncf_apply]
  exact wpad_apply m c cc k h

/-- The squared-norm row is, at every point and at a real centre's column, that centre's squared norm. -/
theorem sblk_apply (c : Dev nD) (t : Fin cfg0.N) (cc : Fin 1024) (h : cc.val < 1000) :
    sblk m c t (ix2 0 cc) = sqNorm (warr m c) ⟨cc.val, h⟩ := by
  refine (blk3_read t (V m c main_v6) (ix2 0 cc)).trans ?_
  have hi : ((cfg0.win 3).blk t).view.emb (ix2 0 cc) = (ix2 (0 : Fin 1) cc : S1x1024.Idx) := by
    obtain ⟨-, -, -, -, -, -, e0, e1⟩ := blk_idx_facts t
    funext a; apply Fin.ext
    match a with
    | ⟨0, _⟩ => show win0_3.index t (0 : Fin 2) * 1 + 1 * 0 = 0; omega
    | ⟨1, _⟩ => show win0_3.index t (1 : Fin 2) * 1024 + 1 * cc.val = cc.val; omega
  rw [hi]
  refine (congrFun (V_main_v6 m c) (ix2 (0 : Fin 1) cc)).trans ?_
  rw [shapeCast_a_1a_apply]
  simp only [Host.reduceAdd, Ideal.hostReduceAdd_def]
  have hred : S1024x2048.Reduces [1] S1024 := by decide
  rw [Ideal.hostReduceAdd_single reducesTo_S1024x2048_S1024_d1 hred]
  rw [constant_apply, Ideal.ofBits_zero_f32, zero_add]
  unfold sqNorm
  show @Eq EReal _ _
  refine Finset.sum_congr rfl fun k _ => ?_
  have hk : hred.lift (ix1 cc) k = (ix2 cc k : S1024x2048.Idx) :=
    funext fun a => Fin.ext (by match a with | ⟨0, _⟩ => rfl | ⟨1, _⟩ => rfl)
  rw [mulf_apply, hk]
  exact congrArg₂ (· * ·) (wpad_apply m c cc k h) (wpad_apply m c cc k h)

end Cert.KernelIdeal.Blocks

end
-- ==== Proof.KernelInvariant.lean ====
import proofs.«426345_j6777458393605_3_alg».proof.Proof.KernelPieces
import proofs.«426345_j6777458393605_3_alg».proof.Proof.KernelAcc
import proofs.«426345_j6777458393605_3_alg».proof.Proof.KernelBody
import proofs.«426345_j6777458393605_3_alg».proof.Proof.KernelBlocks
import proofs.«426345_j6777458393605_3_alg».proof.Proof.Spec

noncomputable section

open scoped BigOperators

namespace Cert.KernelIdeal.Inv

open Idealize.ShloMosaic Idealize.ShloMosaic.TcCoe Idealize.ShloMosaic.ValueIdx Idealize.SL.Sem
open Cert.KernelIdeal Cert.KernelIdeal.Gen Cert.KernelIdeal.Blocks Cert.KernelIdeal.Body Cert.KernelIdeal.Pieces Cert.LabelDist

variable (m : (ℓ : Loc nD τ sig) → Buf (Elt Ideal) ℓ)

/-- Row n's term of the loss, over the argument arrays as launched, at the centre ℓ n. -/
def term (c : Dev nD) (ℓ : Fin 16384 → Fin 1000) : Fin 16384 → EReal :=
  fun n => rowLoss (xarr m c) (warr m c) n (ℓ n)

/-- What one grid point adds to the accumulator: the sum of its tile's row terms — each row's payload is the
    distance to the labelled centre clipped from below (the blocks read back as rows of the argument arrays),
    the accumulator update clips from above and sums the 2048 rows. -/
theorem tile_step (c : Dev nD) (ℓ : Fin 16384 → Fin 1000) (hℓ : ∀ n : Fin 16384, (larr m c (ix1 n)).toNat = (ℓ n).val)
    (t : Fin cfg0.N) (a : Vec Ideal S1x1 .f32) (j : S1x1.Idx) :
    k0_pay1 (F := Ideal) hiW (k0_pay4 (xblk m c t) (wblk m c t) (sblk m c t) (lblk m c t)) a j = a j + tileSum (term m c ℓ) t.val := by
  rw [pay1_apply]
  refine congrArg (a j + ·) ?_
  unfold tileSum
  rw [dif_pos (show t.val < 8 from (tile t).isLt)]
  show _ = ∑ r : Fin 2048, term m c ℓ (tileRow (tile t) r)
  refine Finset.sum_congr rfl fun r _ => ?_
  have hlt : (ℓ (tileRow (tile t) r)).val < 1024 := lt_trans (ℓ (tileRow (tile t) r)).isLt (by decide)
  have hl : (lblk m c t (ix2 r 0)).toNat = (⟨(ℓ (tileRow (tile t) r)).val, hlt⟩ : Fin 1024).val := by
    rw [lblk_apply]; exact hℓ _
  rw [pay4_apply (xblk m c t) (wblk m c t) (sblk m c t) (lblk m c t) r ⟨(ℓ (tileRow (tile t) r)).val, hlt⟩ (ℓ _).isLt hl]
  rw [sblk_apply m c t ⟨(ℓ (tileRow (tile t) r)).val, hlt⟩ (ℓ _).isLt]
  have e1 : sqNorm (xblk m c t) r = sqNorm (xarr m c) (tileRow (tile t) r) := by
    unfold sqNorm
    exact Finset.sum_congr rfl fun k _ => by rw [xblk_apply]
  have e2 : LabelDist.inner (xblk m c t) (wblk m c t) r ⟨(ℓ (tileRow (tile t) r)).val, hlt⟩
      = LabelDist.inner (xarr m c) (warr m c) (tileRow (tile t) r) (ℓ (tileRow (tile t) r)) := by
    unfold LabelDist.inner
    refine Finset.sum_congr rfl fun k _ => ?_
    rw [xblk_apply, wblk_apply m c t ⟨(ℓ (tileRow (tile t) r)).val, hlt⟩ k (ℓ _).isLt]
  rw [e1, e2]
  rfl

/-- At a group's first point the scratch ends at the reset value plus the tile's sum. -/
theorem scratch_A (c : Dev nD) (t : Fin cfg0.N) (h0 : t.val % 4 = 0) :
    (outsAt0 m c t.val t.isLt).2 = k0_pay1 (F := Ideal) hiW (k0_pay4 (xblk m c t) (wblk m c t) (sblk m c t) (lblk m c t)) (k0_pay3 (F := Ideal)) := by
  rw [outsAt0_A m c t h0]
  dsimp only
  exact sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (lblk m c t) (wblk m c t) (sblk m c t)

/-- At the other points it ends at what the point before left plus the tile's sum. -/
theorem scratch_B (c : Dev nD) (t : Fin cfg0.N) (h0 : ¬t.val % 4 = 0) :
    (outsAt0 m c t.val t.isLt).2 = k0_pay1 (F := Ideal) hiW (k0_pay4 (xblk m c t) (wblk m c t) (sblk m c t) (lblk m c t))
      (outsAt0 m c (t.val - 1) (Nat.lt_of_le_of_lt (Nat.sub_le _ _) t.isLt)).2 := by
  rw [outsAt0_B m c t h0]
  dsimp only
  exact sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (xblk m c t) (lblk m c t) (wblk m c t) (sblk m c t) _

/-- The output block a point leaves is the scratch it leaves, at entry (0,0). -/
theorem out_of_scratch (c : Dev nD) (t : Fin cfg0.N) :
    (outsAt0 m c t.val t.isLt).1 = k0_pay2 (F := Ideal) (outsAt0 m c t.val t.isLt).2 := by
  by_cases h0 : t.val % 4 = 0
  · rw [scratch_A m c t h0, outsAt0_A m c t h0]
    dsimp only
    exact out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (xblk m c t) (lblk m c t) (wblk m c t) (sblk m c t)
  · rw [scratch_B m c t h0, outsAt0_B m c t h0]
    dsimp only
    exact out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (xblk m c t) (lblk m c t) (wblk m c t) (sblk m c t) _

/-- THE INVARIANT: after grid point n the scratch holds the running sum of its group of four tiles. -/
theorem scratch_eq (c : Dev nD) (ℓ : Fin 16384 → Fin 1000) (hℓ : ∀ n : Fin 16384, (larr m c (ix1 n)).toNat = (ℓ n).val) :
    ∀ (n : ℕ) (h : n < cfg0.N), (outsAt0 m c n h).2 = fun _ => groupAcc (tileSum (term m c ℓ)) n
  | 0, h => by
    rw [scratch_A m c ⟨0, h⟩ rfl]
    funext j
    rw [tile_step m c ℓ hℓ ⟨0, h⟩, pay3_apply, zero_add]
    rfl
  | n + 1, h => by
    by_cases h0 : (n + 1) % 4 = 0
    · rw [scratch_A m c ⟨n + 1, h⟩ h0]
      funext j
      rw [tile_step m c ℓ hℓ ⟨n + 1, h⟩, pay3_apply, zero_add, groupAcc_restart _ _ h0]
    · rw [scratch_B m c ⟨n + 1, h⟩ h0]
      funext j
      rw [tile_step m c ℓ hℓ ⟨n + 1, h⟩, groupAcc_step _ _ h0]
      show (outsAt0 m c n _).2 j + _ = groupAcc _ n + _
      rw [scratch_eq c ℓ hℓ n (Nat.lt_of_succ_lt h)]

end Cert.KernelIdeal.Inv

end
-- ==== Proof.OutSum.lean ====
/-
  The result array of the kernel is 16 × 128: entry (8g, 0) holds group g's accumulated sum, every other entry is 0.
  Its total is therefore the two groups' sums.
-/
import Idealize.ShloMosaic.PureOps.Ideal
import Idealize.ShloMosaic.Lib.ValueIdx

noncomputable section

open scoped BigOperators

namespace Cert.LabelDist

open Idealize.ShloMosaic Idealize.ShloMosaic.ValueIdx

/-- The array with X g at entry (8g, 0) and 0 elsewhere. -/
def outArr (X : ℕ → EReal) : (⟨2, ![16, 128]⟩ : Shape).Idx → EReal :=
  fun i => if (i 0).val % 8 = 0 ∧ (i 1).val = 0 then X ((i 0).val / 8) else 0

/-- A row of it: only column 0 can be non-zero. -/
theorem sum_outArr_row (X : ℕ → EReal) (a : Fin 16) :
    ∑ b : Fin 128, outArr X (ix2 a b) = if a.val % 8 = 0 then X (a.val / 8) else 0 := by
  unfold outArr
  by_cases ha : a.val % 8 = 0
  · rw [if_pos ha]
    have : ∀ b : Fin 128, (if ((ix2 a b : (⟨2, ![16, 128]⟩ : Shape).Idx) 0).val % 8 = 0 ∧ ((ix2 a b : (⟨2, ![16, 128]⟩ : Shape).Idx) 1).val = 0
        then X (((ix2 a b : (⟨2, ![16, 128]⟩ : Shape).Idx) 0).val / 8) else 0) = if b = (0 : Fin 128) then X (a.val / 8) else 0 := by
      intro b
      show (if a.val % 8 = 0 ∧ b.val = 0 then X (a.val / 8) else 0) = _
      by_cases hb : b = 0
      · subst hb; rw [if_pos ⟨ha, rfl⟩, if_pos rfl]
      · rw [if_neg (fun h => hb (Fin.ext h.2)), if_neg hb]
    rw [Finset.sum_congr rfl fun b _ => this b, Finset.sum_ite_eq' Finset.univ (0 : Fin 128)]
    simp
  · rw [if_neg ha]
    refine Finset.sum_eq_zero fun b _ => ?_
    show (if a.val % 8 = 0 ∧ b.val = 0 then X (a.val / 8) else 0) = 0
    rw [if_neg (fun h => ha h.1)]

/-- The whole array sums to X 0 + X 1: rows 0 and 8 carry the two values. -/
theorem sum_outArr (X : ℕ → EReal) : ∑ i : (⟨2, ![16, 128]⟩ : Shape).Idx, outArr X i = X 0 + X 1 := by
  rw [sum_idx2]
  simp only [sum_outArr_row]
  rw [Fin.sum_univ_eq_sum_range (fun a => if a % 8 = 0 then X (a / 8) else 0) 16]
  simp [Finset.sum_range_succ]

end Cert.LabelDist

end
-- ==== Proof.KernelFinal.lean ====
import proofs.«426345_j6777458393605_3_alg».proof.Proof.KernelInvariant
import proofs.«426345_j6777458393605_3_alg».proof.Proof.OutSum
import Idealize.ShloMosaic.Lib.Pipeline.Value
import Idealize.ShloMosaic.Lib.StableHlo.Run
import Idealize.ShloMosaic.PureOps.Ideal.Laws

noncomputable section

open scoped BigOperators

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Body Cert.KernelIdeal.Inv Cert.LabelDist

variable (m : (ℓ : Loc nD τ sig) → Buf (Elt Ideal) ℓ) (ρ : Dev nD → PrngReg)

/-- Group g's final accumulated sum: the running sum after its fourth tile. -/
def groupSum (c : Dev nD) (ℓ : Fin 16384 → Fin 1000) (g : ℕ) : EReal := groupAcc (tileSum (term m c ℓ)) (4 * g + 3)

/-- The output window's block index at point t is (t / 4, 0): decided over the eight grid points. -/
theorem out_idx : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)

/-- What a group's last point writes back is that group's 8 × 128 block of the array with the group sums at (8g, 0). -/
theorem flushed_eq (c : Dev nD) (ℓ : Fin 16384 → Fin 1000) (hℓ : ∀ n : Fin 16384, (larr m c (ix1 n)).toNat = (ℓ n).val)
    (t : Fin cfg0.N) (hf : (cfg0.win 4).flush t = true) :
    (dats m 0 c).flushed 4 t = ((cfg0.win 4).blk t).view.read (Elt Ideal) (outArr (groupSum m c ℓ)) := by
  have h3 : t.val % 4 = 3 := (flush0_4 t).mp hf
  have hN : t.val < 8 := lt_of_lt_of_eq t.isLt (show cfg0.N = 8 from N_0)
  obtain ⟨e0, e1⟩ := out_idx t
  show (cfg0.win 4).cut (grid0.coords t) ((dats m 0 c).after 4 t) = _
  rw [after0_4, out_of_scratch, scratch_eq m c ℓ hℓ]
  funext y
  obtain ⟨y0, y1, rfl⟩ : ∃ (y0 : Fin 8) (y1 : Fin 128), y = ix2 y0 y1 := ⟨y 0, y 1, eq_ix2 y⟩
  show k0_pay2 (F := Ideal) (fun _ => groupAcc (tileSum (term m c ℓ)) t.val) (ix2 y0 y1)
    = outArr (groupSum m c ℓ) (((cfg0.win 4).blk t).view.emb (ix2 y0 y1))
  rw [pay2_apply]
  have c0 : ((((cfg0.win 4).blk t).view.emb (ix2 y0 y1)) 0).val = win0_4.index t (0 : Fin 2) * 8 + 1 * y0.val := rfl
  have c1 : ((((cfg0.win 4).blk t).view.emb (ix2 y0 y1)) 1).val = win0_4.index t (1 : Fin 2) * 128 + 1 * y1.val := rfl
  unfold outArr
  rw [c0, c1, e0, e1]
  have hy0 : y0.val < 8 := y0.isLt
  by_cases hy : y0.val = 0 ∧ y1.val = 0
  · rw [if_pos hy, if_pos ⟨by omega, by omega⟩]
    unfold groupSum
    congr 1
    omega
  · rw [if_neg hy, if_neg (fun h => hy ⟨by omega, by omega⟩)]

/-- Every entry of the 16 × 128 array lies in the block some group's last point writes back. -/
theorem covered (i : S16x128.Idx) : ∃ t : Fin cfg0.N, (cfg0.win 4).flush t = true ∧ i ∈ ((cfg0.win 4).blk t).view.set := by
  have hi0 : (i 0).val < 16 := (i 0).isLt
  have hi1 : (i 1).val < 128 := (i 1).isLt
  have hN : cfg0.N = 8 := N_0
  let t : Fin cfg0.N := ⟨4 * ((i 0).val / 8) + 3, by omega⟩
  obtain ⟨e0, e1⟩ := out_idx t
  have tv : t.val = 4 * ((i 0).val / 8) + 3 := rfl
  refine ⟨t, (flush0_4 t).mpr (by omega), ?_⟩
  show i ∈ ((View.whole main_v8).slice (win0_4.rect t)).set
  rw [View.set_slice_whole, Rect.mem_set_unit]
  intro a
  match a with
  | ⟨0, _⟩ =>
    show win0_4.index t (0 : Fin 2) * 8 ≤ (i 0).val ∧ (i 0).val < win0_4.index t (0 : Fin 2) * 8 + 8
    rw [e0]; omega
  | ⟨1, _⟩ =>
    show win0_4.index t (1 : Fin 2) * 128 ≤ (i 1).val ∧ (i 1).val < win0_4.index t (1 : Fin 2) * 128 + 128
    rw [e1]; omega

/-- So the result array of the region ends as the array with the two group sums at (0,0) and (8,0). -/
theorem final_out (c : Dev nD) (ℓ : Fin 16384 → Fin 1000) (hℓ : ∀ n : Fin 16384, (larr m c (ix1 n)).toNat = (ℓ n).val) :
    (dats m 0 c).arrAt 4 cfg0.N = outArr (groupSum m c ℓ) :=
  (dats m 0 c).arrAt_eq_of_cover 4 (outArr (groupSum m c ℓ)) (fun t hf => flushed_eq m c ℓ hℓ t hf) (covered)

end Cert.KernelIdeal.Final

end
-- ==== Proof.KernelRun.lean ====
import proofs.«426345_j6777458393605_3_alg».proof.Proof.KernelFinal
import Idealize.ShloMosaic.Lib.Pipeline.Value
import Idealize.ShloMosaic.Lib.StableHlo.Run
import Idealize.ShloMosaic.PureOps.Ideal.Laws

noncomputable section

open scoped BigOperators

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Inv Cert.LabelDist

variable (m : (ℓ : Loc nD τ sig) → Buf (Elt Ideal) ℓ) (ρ : Dev nD → PrngReg)

/-- The host's last lines: the result is the quotient by 16384 of the sum (from 0) of the region's result array. -/
theorem tail_eq (c : Dev nD) :
    Pipeline.afterTail₀ cfgs (dats m) 0 (V0 m) [hostOps1] c main_v10
      = Host.divf (Host.reduceAdd ((dats m 0 c).arrAt 4 cfg0.N) (constant (F := Ideal) S_ .f32 0x00000000#32) reducesTo_S16x128_S_d0_1 h_S_)
          (constant (F := Ideal) S_ .f32 0x46800000#32) := by
  unfold Pipeline.afterTail₀
  show StableHlo.after hostOps1 _ (Proc.devRef .tc main_v10) = _
  after_results
  have e := Pipeline.withArrays_arr spec0 launch0.win.arr_inj c (V0 m c) (fun w => (dats m 0 c).arrAt w cfg0.N) (4 : Fin 5)
  exact congrArg (fun X : Vec Ideal S16x128 .f32 => Host.divf (Host.reduceAdd X (constant (F := Ideal) S_ .f32 0x00000000#32) reducesTo_S16x128_S_d0_1 h_S_)
    (constant (F := Ideal) S_ .f32 0x46800000#32)) e

/-- The kernel's result is the loss: the result array holds the two groups' sums, its total is the sum over all rows
    (the rows are the eight tiles' rows, regrouped), and the host divides by the number of rows. -/
theorem kernel_loss (c : Dev nD) (ℓ : Fin 16384 → Fin 1000) (hℓ : ∀ n : Fin 16384, (larr m c (ix1 n)).toNat = (ℓ n).val) :
    Pipeline.afterTail₀ cfgs (dats m) 0 (V0 m) [hostOps1] c main_v10 = fun _ => loss (xarr m c) (warr m c) ℓ := by
  rw [tail_eq, final_out m c ℓ hℓ]
  funext i
  show FloatOps.hostDivf (Host.reduceAdd (outArr (groupSum m c ℓ)) (constant (F := Ideal) S_ .f32 0x00000000#32) reducesTo_S16x128_S_d0_1 h_S_ i)
    (Ideal.ofBits .f32 0x46800000#32) = _
  simp only [Host.reduceAdd, Ideal.hostReduceAdd_def, Ideal.hostDivf_def]
  rw [Ideal.hostReduceAdd_total reducesTo_S16x128_S_d0_1 (fun b => b.elim0)]
  show Ideal.div (Ideal.ofBits .f32 0x00000000#32 + ∑ j : S16x128.Idx, outArr (groupSum m c ℓ) j) rows = _
  rw [Ideal.ofBits_zero_f32, zero_add, sum_outArr]
  unfold loss
  rw [sum_rows_eq_groups]
  rfl

/-- The run of the idealized kernel, read: the result at the loss, the three arguments unchanged. -/
theorem run (ℓ : Dev nD → Fin 16384 → Fin 1000) (hℓ : ∀ (c : Dev nD) (n : Fin 16384), (larr m c (ix1 n)).toNat = (ℓ c n).val) :
    θ_run defs (onTc (τ := τ) (main (F := Ideal))) ⟨m, fun _ => 0, ρ⟩ (fun r => ∀ c : Dev nD,
      r.2.mem ((c.tc : Thread nD τ).loc main_v10) = (fun _ => loss (xarr m c) (warr m c) (ℓ c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v10 (Pipeline.mem_restRefs_of main_v10 (by decide) (by decide))).trans (kernel_loss m c (ℓ c) (hℓ c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.lean ====
/-
  The centre-distance loss: for x f32[16384, 2048], labels i32[16384] and centres w f32[1000, 2048] both programs
  compute the mean over the rows n of

      clip( (∑ₖ x[n,k]² + ∑ₖ w[c,k]²) − 2 · ∑ₖ x[n,k]·w[c,k],  lo, hi )      at  c = labels[n],

  under the precondition that the float inputs are finite and every label is the number of a centre, 0 ≤ label < 1000
  (outside it the two differ: the reference wraps a negative label around and clamps a large one, the kernel's
  one-hot mask then selects no centre at all).

  The reference forms the whole [16384, 1000] matrix of expanded distances, gathers entry (n, labels[n]) of each row,
  clips, sums the 16384 values from 0 and divides by 16384.  The kernel pads the centres with 24 zero rows, walks the
  rows in eight tiles of 2048 (two groups of four); in a tile it multiplies the rows with all 1024 padded centres,
  picks the labelled column of the products and of the squared-norm row by a one-hot mask (column = label and
  column < 1000) summed over the columns — a sum with one non-zero term —, clips, and adds the tile's sum to a 1 × 1
  accumulator that restarts with each group; the group's running sum is written to entry (0,0) of the group's
  8 × 128 block of a 16 × 128 result array whose other entries are 0, and the host sums that array from 0 and divides
  by 16384.  At the extended reals a change of float format is the identity, so both compute the same 16384 clipped
  distances; the sums differ only in grouping, and + on the extended reals is commutative and associative, so the
  precondition's finiteness half is not used: only the label range is.

  Modules: Spec (the loss and the regrouping of the rows into tiles and groups), OutSum (the result array's total),
  LabelRange (the label range read out of the precondition), RefLoss (the reference's result is the loss),
  KernelBody / KernelAcc (the body's payloads read at an index), KernelBlocks (the input blocks as rows of the
  arguments), KernelPieces (what a grid point leaves in the accumulator and the output block), KernelInvariant
  (the accumulator after each point is its group's running sum), KernelFinal (the result array), KernelRun
  (the host's last lines and the run).  The three frames are the generated ones; the idealization rewrote nothing.
-/
import proofs.«426345_j6777458393605_3_alg».proof.Defs
import proofs.«426345_j6777458393605_3_alg».proof.Proof.Gen.Kernel
import proofs.«426345_j6777458393605_3_alg».proof.Proof.Gen.Kernel.Skeleton
import proofs.«426345_j6777458393605_3_alg».proof.Proof.Gen.Kernel.Launch
import proofs.«426345_j6777458393605_3_alg».proof.Proof.Gen.Kernel.Points
import proofs.«426345_j6777458393605_3_alg».proof.Proof.Gen.Kernel.Frame
import proofs.«426345_j6777458393605_3_alg».proof.Proof.Gen.KernelIdeal
import proofs.«426345_j6777458393605_3_alg».proof.Proof.Gen.KernelIdeal.Skeleton
import proofs.«426345_j6777458393605_3_alg».proof.Proof.Gen.KernelIdeal.Launch
import proofs.«426345_j6777458393605_3_alg».proof.Proof.Gen.KernelIdeal.Points
import proofs.«426345_j6777458393605_3_alg».proof.Proof.Gen.KernelIdeal.Frame
import proofs.«426345_j6777458393605_3_alg».proof.Proof.Gen.ReferenceIdeal
import proofs.«426345_j6777458393605_3_alg».proof.Proof.Gen.Pre_finite_inputs
import proofs.«426345_j6777458393605_3_alg».proof.Proof.Gen.ReferenceIdeal.Run
import proofs.«426345_j6777458393605_3_alg».proof.Proof.Gen.ReferenceIdeal.Read
import proofs.«426345_j6777458393605_3_alg».proof.Proof.LabelRange
import proofs.«426345_j6777458393605_3_alg».proof.Proof.RefLoss
import proofs.«426345_j6777458393605_3_alg».proof.Proof.KernelRun
import Idealize.ShloMosaic.Adequacy
import Idealize.ShloMosaic.Init

noncomputable section

namespace Cert.Proof

open Idealize.ShloMosaic Idealize.ShloMosaic.ValueIdx Idealize.SL.Sem

/-- The word-level kernel terminates without a fault and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the loss of the (agreeing) arguments: the precondition gives each label as the
    number of a centre; the kernel's run and the reference's run are then read as the same function of the arguments. -/
theorem algebraic : Cert.algebraic_KernelIdeal_ReferenceIdeal := by
  intro m ρ m' ρ' hpre hagree
  have hlt : ∀ (c : Dev Cert.KernelIdeal.nD) (n : Fin 16384),
      (Cert.KernelIdeal.Blocks.larr m c (ix1 n)).toNat < 1000 :=
    fun c n => Cert.LabelRange.label_lt _ _ _ (hpre c) n
  refine ⟨fun c => fun _ => Cert.LabelDist.loss (Cert.KernelIdeal.Blocks.xarr m c) (Cert.KernelIdeal.Blocks.warr m c)
      (fun n => ⟨_, hlt c n⟩),
    Cert.KernelIdeal.Final.run m ρ (fun c n => ⟨_, hlt c n⟩) (fun _ _ => rfl), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2]
  exact Cert.ReferenceIdeal.RefValue.ref_loss _ _ _ (fun n => ⟨_, hlt c n⟩) (fun _ => rfl)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
